-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x128 : Shape := ⟨2, ![20000, 128]⟩
abbrev S100000x1 : Shape := ⟨2, ![100000, 1]⟩
abbrev S20000x1 : Shape := ⟨2, ![20000, 1]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S100000x1 : S_.BroadcastsInDim S100000x1 (![] : Fin 0 → Fin S100000x1.rank)
  reducesTo_S100000x1_S_d0_1 : S100000x1.ReducesTo [0, 1] S_
  bcast_S_S20000x1 : S_.BroadcastsInDim S20000x1 (![] : Fin 0 → Fin S20000x1.rank)
  reducesTo_S20000x1_S_d0_1 : S20000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_v48 main_v49 main_v50

def fn_part1 {F : FTy → Type} [FloatOps F] (main_arg4 : FVec F S20000x1 .f32) (main_arg5 : FVec F S20000x1 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_v13 : IVec S_ 1) (main_v16 : IVec S100000x1 1) : IVec S_ 1 :=
  let main_c_5 : IVec S_ 1 := constantI S_ 1 1#1
  let main_v17 : IVec S_ 1 := (fun x v => Host.reduce IntOp.andi x v reducesTo_S100000x1_S_d0_1 h_S_) main_v16 main_c_5
  let main_v18 : IVec S_ 1 := andi main_v13 main_v17
  let main_v19 : FVec F S20000x1 .f32 := Host.absf main_arg4
  let main_cst_6 : FVec F S_ .f32 := constant S_ .f32 0x7F800000#32
  let main_v20 : FVec F S20000x1 .f32 := broadcastInDim S20000x1 ![] bcast_S_S20000x1 main_cst_6
  let main_v21 : IVec S20000x1 1 := cmpf .olt main_v19 main_v20
  let main_c_7 : IVec S_ 1 := constantI S_ 1 1#1
  let main_v22 : IVec S_ 1 := (fun x v => Host.reduce IntOp.andi x v reducesTo_S20000x1_S_d0_1 h_S_) main_v21 main_c_7
  let main_v23 : IVec S_ 1 := andi main_v18 main_v22
  let main_v24 : FVec F S20000x1 .f32 := Host.absf main_arg5
  let main_cst_8 : FVec F S_ .f32 := constant S_ .f32 0x7F800000#32
  let main_v25 : FVec F S20000x1 .f32 := broadcastInDim S20000x1 ![] bcast_S_S20000x1 main_cst_8
  let main_v26 : IVec S20000x1 1 := cmpf .olt main_v24 main_v25
  let main_c_9 : IVec S_ 1 := constantI S_ 1 1#1
  let main_v27 : IVec S_ 1 := (fun x v => Host.reduce IntOp.andi x v reducesTo_S20000x1_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : FVec F S20000x128 .f32) (main_arg2 : FVec F S100000x1 .f32) (main_arg3 : FVec F S100000x1 .f32) (main_arg4 : FVec F S20000x1 .f32) (main_arg5 : FVec F S20000x1 .f32) (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S100000x1 .f32 := Host.absf main_arg3
  let main_cst_4 : FVec F S_ .f32 := constant S_ .f32 0x7F800000#32
  let main_v15 : FVec F S100000x1 .f32 := broadcastInDim S100000x1 ![] bcast_S_S100000x1 main_cst_4
  let main_v16 : IVec S100000x1 1 := cmpf .olt main_v14 main_v15
  fn_part1 (F := F) main_arg4 main_arg5 main_arg8 main_arg9 main_arg10 main_arg11 main_arg12 main_arg13 main_v13 main_v16
-- ==== Kernel.lean ====
abbrev S100000x128 : Shape := ⟨2, ![100000, 128]⟩
abbrev S20000x128 : Shape := ⟨2, ![20000, 128]⟩
abbrev S100000x1 : Shape := ⟨2, ![100000, 1]⟩
abbrev S20000x1 : Shape := ⟨2, ![20000, 1]⟩
abbrev S600000 : Shape := ⟨1, ![600000]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S_ : Shape := ⟨0, ![]⟩
abbrev S600000x1 : Shape := ⟨2, ![600000, 1]⟩
abbrev S600000x128 : Shape := ⟨2, ![600000, 128]⟩

abbrev nBuf : Space → Nat
  | .hbm => 93
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S100000x1, .f32⟩
  | .hbm, ⟨3, _⟩ => ⟨S100000x1, .f32⟩
  | .hbm, ⟨4, _⟩ => ⟨S20000x1, .f32⟩
  | .hbm, ⟨5, _⟩ => ⟨S20000x1, .f32⟩
  | .hbm, ⟨6, _⟩ => ⟨S600000, .i32⟩
  | .hbm, ⟨7, _⟩ => ⟨S600000, .i32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128x128, .bf16⟩
  | .hbm, ⟨16, _⟩ => ⟨S128x128, .f32⟩
  | .hbm, ⟨17, _⟩ => ⟨S128x128, .bf16⟩
  | .hbm, ⟨18, _⟩ => ⟨S128x128, .f32⟩
  | .hbm, ⟨19, _⟩ => ⟨S128x128, .bf16⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S100000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x1, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000x1, .f32⟩
  | .hbm, ⟨42, _⟩ => ⟨S600000x1, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x128, .f32⟩
  | .hbm, ⟨52, _⟩ => ⟨S600000x128, .f32⟩
  | .hbm, ⟨53, _⟩ => ⟨S600000x128, .f32⟩
  | .hbm, ⟨54, _⟩ => ⟨S_, .f32⟩
  | .hbm, ⟨55, _⟩ => ⟨S20000x128, .f32⟩
  | .hbm, ⟨56, _⟩ => ⟨S600000x1, .i32⟩
  | .hbm, ⟨57, _⟩ => ⟨S20000x128, .f32⟩
  | .hbm, ⟨58, _⟩ => ⟨S20000x128, .f32⟩
  | .hbm, ⟨59, _⟩ => ⟨S_, .i32⟩
  | .hbm, ⟨60, _⟩ => ⟨S600000, .i32⟩
  | .hbm, ⟨61, _⟩ => ⟨S600000, .i1⟩
  | .hbm, ⟨62, _⟩ => ⟨S_, .i32⟩
  | .hbm, ⟨63, _⟩ => ⟨S600000, .i32⟩
  | .hbm, ⟨64, _⟩ => ⟨S600000, .i32⟩
  | .hbm, ⟨65, _⟩ => ⟨S600000, .i32⟩
  | .hbm, ⟨66, _⟩ => ⟨S600000x1, .i32⟩
  | .hbm, ⟨67, _⟩ => ⟨S600000x1, .f32⟩
  | .hbm, ⟨68, _⟩ => ⟨S_, .i32⟩
  | .hbm, ⟨69, _⟩ => ⟨S600000, .i32⟩
  | .hbm, ⟨70, _⟩ => ⟨S600000, .i1⟩
  | .hbm, ⟨71, _⟩ => ⟨S_, .i32⟩
  | .hbm, ⟨72, _⟩ => ⟨S600000, .i32⟩
  | .hbm, ⟨73, _⟩ => ⟨S600000, .i32⟩
  | .hbm, ⟨74, _⟩ => ⟨S600000, .i32⟩
  | .hbm, ⟨75, _⟩ => ⟨S600000x1, .i32⟩
  | .hbm, ⟨76, _⟩ => ⟨S600000x1, .f32⟩
  | .hbm, ⟨77, _⟩ => ⟨S600000x1, .f32⟩
  | .hbm, ⟨78, _⟩ => ⟨S_, .i32⟩
  | .hbm, ⟨79, _⟩ => ⟨S600000, .i32⟩
  | .hbm, ⟨80, _⟩ => ⟨S600000, .i1⟩
  | .hbm, ⟨81, _⟩ => ⟨S_, .i32⟩
  | .hbm, ⟨82, _⟩ => ⟨S600000, .i32⟩
  | .hbm, ⟨83, _⟩ => ⟨S600000, .i32⟩
  | .hbm, ⟨84, _⟩ => ⟨S600000, .i32⟩
  | .hbm, ⟨85, _⟩ => ⟨S600000x1, .i32⟩
  | .hbm, ⟨86, _⟩ => ⟨S600000x128, .f32⟩
  | .hbm, ⟨87, _⟩ => ⟨S600000x128, .f32⟩
  | .hbm, ⟨88, _⟩ => ⟨S600000x128, .f32⟩
  | .hbm, ⟨89, _⟩ => ⟨S_, .f32⟩
  | .hbm, ⟨90, _⟩ => ⟨S100000x128, .f32⟩
  | .hbm, ⟨91, _⟩ => ⟨S600000x1, .i32⟩
  | .hbm, ⟨92, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .bf16⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_5 : Ref sig .tc := ⟨.hbm, 59, rfl⟩
abbrev main_v38 : Ref sig .tc := ⟨.hbm, 60, rfl⟩
abbrev main_v39 : Ref sig .tc := ⟨.hbm, 61, rfl⟩
abbrev main_c_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_7 : Ref sig .tc := ⟨.hbm, 68, rfl⟩
abbrev main_v45 : Ref sig .tc := ⟨.hbm, 69, rfl⟩
abbrev main_v46 : Ref sig .tc := ⟨.hbm, 70, rfl⟩
abbrev main_c_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_9 : Ref sig .tc := ⟨.hbm, 78, rfl⟩
abbrev main_v53 : Ref sig .tc := ⟨.hbm, 79, rfl⟩
abbrev main_v54 : Ref sig .tc := ⟨.hbm, 80, rfl⟩
abbrev main_c_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S20000x128 : S_.BroadcastsInDim S20000x128 (![] : Fin 0 → Fin S20000x128.rank)
  shapeCasts_S5000x128_S5000x128 : S5000x128.ShapeCasts S5000x128
  bcast_S_S100000x128 : S_.BroadcastsInDim S100000x128 (![] : Fin 0 → Fin S100000x128.rank)
  dot_S5000x128_S128x128_S5000x128_1_0_0_1_n_n_wf : DotDims.WF S5000x128 S128x128 S5000x128 [1] [0] [0] [1] [] []
  gather_S100000x1_S600000x1_S600000x1_1_0_n_n_0_1_11_wf : GatherDims.WF S100000x1 S600000x1 S600000x1 [1] [0] [] [0] [] 1 ![1, 1]
  gather_S20000x1_S600000x1_S600000x1_1_0_n_n_0_1_11_wf : GatherDims.WF S20000x1 S600000x1 S600000x1 [1] [0] [] [0] [] 1 ![1, 1]
  gather_S100000x128_S600000x1_S600000x128_1_0_n_n_0_1_1128_wf : GatherDims.WF S100000x128 S600000x1 S600000x128 [1] [0] [] [0] [] 1 ![1, 128]
  scatter_S20000x128_S600000x1_S600000x128_1_0_0_1_wf : ScatterDims.WF S20000x128 S600000x1 S600000x128 [1] [0] [0] 1
  gather_S20000x128_S600000x1_S600000x128_1_0_n_n_0_1_1128_wf : GatherDims.WF S20000x128 S600000x1 S600000x128 [1] [0] [] [0] [] 1 ![1, 128]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S20000x128.size a
  hwx1_0 : ∀ i : grid1.Coords, EltTy.bits .f32 = 32 ∨ (Rect.block (s := S20000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S20000x128.size a
  hwx1_3 : ∀ i : grid1.Coords, EltTy.bits .f32 = 32 ∨ (Rect.block (s := S20000x128) S5000x128.size (cc1_transform_3 i) (hinb1_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x1_S600000x1_S600000x1_1_0_n_n_0_1_11 : GatherDims S100000x1 S600000x1 S600000x1 where
  offsetDims := [1]
  collapsedSliceDims := [0]
  operandBatchingDims := []
  startIndicesBatchingDims := []
  startIndexMap := [0]
  indexVectorDim := 1
  sliceSizes := ![1, 1]
  wf := gather_S100000x1_S600000x1_S600000x1_1_0_n_n_0_1_11_wf
def gather_S20000x1_S600000x1_S600000x1_1_0_n_n_0_1_11 : GatherDims S20000x1 S600000x1 S600000x1 where
  offsetDims := [1]
  collapsedSliceDims := [0]
  operandBatchingDims := []
  startIndicesBatchingDims := []
  startIndexMap := [0]
  indexVectorDim := 1
  sliceSizes := ![1, 1]
  wf := gather_S20000x1_S600000x1_S600000x1_1_0_n_n_0_1_11_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S20000x128_S600000x1_S600000x128_1_0_0_1 : ScatterDims S20000x128 S600000x1 S600000x128 where
  updateWindowDims := [1]
  insertedWindowDims := [0]
  scatterDimsToOperandDims := [0]
  indexVectorDim := 1
  wf := scatter_S20000x128_S600000x1_S600000x128_1_0_0_1_wf
def gather_S20000x128_S600000x1_S600000x128_1_0_n_n_0_1_1128 : GatherDims S20000x128 S600000x1 S600000x128 where
  offsetDims := [1]
  collapsedSliceDims := [0]
  operandBatchingDims := []
  startIndicesBatchingDims := []
  startIndexMap := [0]
  indexVectorDim := 1
  sliceSizes := ![1, 128]
  wf := gather_S20000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S20000x128 : Shape := ⟨2, ![20000, 128]⟩
abbrev S100000x1 : Shape := ⟨2, ![100000, 1]⟩
abbrev S20000x1 : Shape := ⟨2, ![20000, 1]⟩
abbrev S600000 : Shape := ⟨1, ![600000]⟩
abbrev S128x128 : Shape := ⟨2, ![128, 128]⟩
abbrev S128 : Shape := ⟨1, ![128]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩

abbrev nBuf : Space → Nat
  | .hbm => 97
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S100000x1, .f32⟩
  | .hbm, ⟨3, _⟩ => ⟨S100000x1, .f32⟩
  | .hbm, ⟨4, _⟩ => ⟨S20000x1, .f32⟩
  | .hbm, ⟨5, _⟩ => ⟨S20000x1, .f32⟩
  | .hbm, ⟨6, _⟩ => ⟨S600000, .i32⟩
  | .hbm, ⟨7, _⟩ => ⟨S600000, .i32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S100000x128, .f32⟩
  | .hbm, ⟨16, _⟩ => ⟨S1x128, .f32⟩
  | .hbm, ⟨17, _⟩ => ⟨S100000x128, .f32⟩
  | .hbm, ⟨18, _⟩ => ⟨S100000x128, .f32⟩
  | .hbm, ⟨19, _⟩ => ⟨S128x128, .f32⟩
  | .hbm, ⟨20, _⟩ => ⟨S100000x128, .f32⟩
  | .hbm, ⟨21, _⟩ => ⟨S1x128, .f32⟩
  | .hbm, ⟨22, _⟩ => ⟨S100000x128, .f32⟩
  | .hbm, ⟨23, _⟩ => ⟨S100000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x1, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000x1, .f32⟩
  | .hbm, ⟨42, _⟩ => ⟨S600000x1, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x128, .f32⟩
  | .hbm, ⟨52, _⟩ => ⟨S600000x128, .f32⟩
  | .hbm, ⟨53, _⟩ => ⟨S600000x128, .f32⟩
  | .hbm, ⟨54, _⟩ => ⟨S_, .f32⟩
  | .hbm, ⟨55, _⟩ => ⟨S20000x128, .f32⟩
  | .hbm, ⟨56, _⟩ => ⟨S600000x1, .i32⟩
  | .hbm, ⟨57, _⟩ => ⟨S20000x128, .f32⟩
  | .hbm, ⟨58, _⟩ => ⟨S128x128, .f32⟩
  | .hbm, ⟨59, _⟩ => ⟨S20000x128, .f32⟩
  | .hbm, ⟨60, _⟩ => ⟨S1x128, .f32⟩
  | .hbm, ⟨61, _⟩ => ⟨S20000x128, .f32⟩
  | .hbm, ⟨62, _⟩ => ⟨S20000x128, .f32⟩
  | .hbm, ⟨63, _⟩ => ⟨S_, .i32⟩
  | .hbm, ⟨64, _⟩ => ⟨S600000, .i32⟩
  | .hbm, ⟨65, _⟩ => ⟨S600000, .i1⟩
  | .hbm, ⟨66, _⟩ => ⟨S_, .i32⟩
  | .hbm, ⟨67, _⟩ => ⟨S600000, .i32⟩
  | .hbm, ⟨68, _⟩ => ⟨S600000, .i32⟩
  | .hbm, ⟨69, _⟩ => ⟨S600000, .i32⟩
  | .hbm, ⟨70, _⟩ => ⟨S600000x1, .i32⟩
  | .hbm, ⟨71, _⟩ => ⟨S600000x1, .f32⟩
  | .hbm, ⟨72, _⟩ => ⟨S_, .i32⟩
  | .hbm, ⟨73, _⟩ => ⟨S600000, .i32⟩
  | .hbm, ⟨74, _⟩ => ⟨S600000, .i1⟩
  | .hbm, ⟨75, _⟩ => ⟨S_, .i32⟩
  | .hbm, ⟨76, _⟩ => ⟨S600000, .i32⟩
  | .hbm, ⟨77, _⟩ => ⟨S600000, .i32⟩
  | .hbm, ⟨78, _⟩ => ⟨S600000, .i32⟩
  | .hbm, ⟨79, _⟩ => ⟨S600000x1, .i32⟩
  | .hbm, ⟨80, _⟩ => ⟨S600000x1, .f32⟩
  | .hbm, ⟨81, _⟩ => ⟨S600000x1, .f32⟩
  | .hbm, ⟨82, _⟩ => ⟨S_, .i32⟩
  | .hbm, ⟨83, _⟩ => ⟨S600000, .i32⟩
  | .hbm, ⟨84, _⟩ => ⟨S600000, .i1⟩
  | .hbm, ⟨85, _⟩ => ⟨S_, .i32⟩
  | .hbm, ⟨86, _⟩ => ⟨S600000, .i32⟩
  | .hbm, ⟨87, _⟩ => ⟨S600000, .i32⟩
  | .hbm, ⟨88, _⟩ => ⟨S600000, .i32⟩
  | .hbm, ⟨89, _⟩ => ⟨S600000x1, .i32⟩
  | .hbm, ⟨90, _⟩ => ⟨S600000x128, .f32⟩
  | .hbm, ⟨91, _⟩ => ⟨S600000x128, .f32⟩
  | .hbm, ⟨92, _⟩ => ⟨S600000x128, .f32⟩
  | .hbm, ⟨93, _⟩ => ⟨S_, .f32⟩
  | .hbm, ⟨94, _⟩ => ⟨S100000x128, .f32⟩
  | .hbm, ⟨95, _⟩ => ⟨S600000x1, .i32⟩
  | .hbm, ⟨96, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_5 : Ref sig .tc := ⟨.hbm, 63, rfl⟩
abbrev main_v42 : Ref sig .tc := ⟨.hbm, 64, rfl⟩
abbrev main_v43 : Ref sig .tc := ⟨.hbm, 65, rfl⟩
abbrev main_c_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_7 : Ref sig .tc := ⟨.hbm, 72, rfl⟩
abbrev main_v49 : Ref sig .tc := ⟨.hbm, 73, rfl⟩
abbrev main_v50 : Ref sig .tc := ⟨.hbm, 74, rfl⟩
abbrev main_c_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_9 : Ref sig .tc := ⟨.hbm, 82, rfl⟩
abbrev main_v57 : Ref sig .tc := ⟨.hbm, 83, rfl⟩
abbrev main_v58 : Ref sig .tc := ⟨.hbm, 84, rfl⟩
abbrev main_c_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S20000x128 : S_.BroadcastsInDim S20000x128 (![] : Fin 0 → Fin S20000x128.rank)
  bcast_S1x128_S20000x128_0_1 : S1x128.BroadcastsInDim S20000x128 (![0, 1] : Fin 2 → Fin S20000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x1_S600000x1_S600000x1_1_0_n_n_0_1_11_wf : GatherDims.WF S100000x1 S600000x1 S600000x1 [1] [0] [] [0] [] 1 ![1, 1]
  gather_S20000x1_S600000x1_S600000x1_1_0_n_n_0_1_11_wf : GatherDims.WF S20000x1 S600000x1 S600000x1 [1] [0] [] [0] [] 1 ![1, 1]
  gather_S100000x128_S600000x1_S600000x128_1_0_n_n_0_1_1128_wf : GatherDims.WF S100000x128 S600000x1 S600000x128 [1] [0] [] [0] [] 1 ![1, 128]
  scatter_S20000x128_S600000x1_S600000x128_1_0_0_1_wf : ScatterDims.WF S20000x128 S600000x1 S600000x128 [1] [0] [0] 1
  dot_S20000x128_S128x128_S20000x128_1_0_0_1_n_n_wf : DotDims.WF S20000x128 S128x128 S20000x128 [1] [0] [0] [1] [] []
  gather_S20000x128_S600000x1_S600000x128_1_0_n_n_0_1_1128_wf : GatherDims.WF S20000x128 S600000x1 S600000x128 [1] [0] [] [0] [] 1 ![1, 128]
  scatter_S100000x128_S600000x1_S600000x128_1_0_0_1_wf : ScatterDims.WF S100000x128 S600000x1 S600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x1_S600000x1_S600000x1_1_0_n_n_0_1_11 : GatherDims S100000x1 S600000x1 S600000x1 where
  offsetDims := [1]
  collapsedSliceDims := [0]
  operandBatchingDims := []
  startIndicesBatchingDims := []
  startIndexMap := [0]
  indexVectorDim := 1
  sliceSizes := ![1, 1]
  wf := gather_S100000x1_S600000x1_S600000x1_1_0_n_n_0_1_11_wf
def gather_S20000x1_S600000x1_S600000x1_1_0_n_n_0_1_11 : GatherDims S20000x1 S600000x1 S600000x1 where
  offsetDims := [1]
  collapsedSliceDims := [0]
  operandBatchingDims := []
  startIndicesBatchingDims := []
  startIndexMap := [0]
  indexVectorDim := 1
  sliceSizes := ![1, 1]
  wf := gather_S20000x1_S600000x1_S600000x1_1_0_n_n_0_1_11_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S20000x128_S600000x1_S600000x128_1_0_0_1 : ScatterDims S20000x128 S600000x1 S600000x128 where
  updateWindowDims := [1]
  insertedWindowDims := [0]
  scatterDimsToOperandDims := [0]
  indexVectorDim := 1
  wf := scatter_S20000x128_S600000x1_S600000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S600000x1_S600000x128_1_0_n_n_0_1_1128 : GatherDims S20000x128 S600000x1 S600000x128 where
  offsetDims := [1]
  collapsedSliceDims := [0]
  operandBatchingDims := []
  startIndicesBatchingDims := []
  startIndexMap := [0]
  indexVectorDim := 1
  sliceSizes := ![1, 128]
  wf := gather_S20000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«117695_j46574625357936_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.Layer.lean ====
/-
  One projection layer of the message-passing network, as a function of whole arrays.

  A layer takes an array `x` of `R` rows of 128 features, a 128×128 matrix `Wt` (the transposed weight) and a bias
  laid out as one row, and returns `x · Wt + bias`: the entry at `(r, c)` is the sum over `k` of
  `x (r, k) * Wt (k, c)`, plus `bias (0, c)`. Every row is computed from that row of `x` alone, so a block of rows of
  the result is the layer of that block of rows. On the extended reals a change of float format is the identity, so the
  layer does not care which formats its operands are declared at.

  The kernel's body spells a layer as a matrix product into a zero accumulator plus the bias row repeated down the
  rows; the reference spells it as a `dot_general` plus the same repeated row. Both are this function.
-/
import proofs.«117695_j46574625357936_1_alg».proof.Proof.LibPlainDotAny
import Idealize.ShloMosaic.Lib.ValueIdx
import Idealize.ShloMosaic.Lib.Pipeline.Value
import Idealize.ShloMosaic.PureOps.Ideal.Laws

noncomputable section

open scoped BigOperators

namespace Cert.Projection

open Idealize.ShloMosaic Idealize.ShloMosaic.ValueIdx

variable (R : Nat)

/-- `x · Wt + bias`, entry by entry. -/
def layer {φ₁ φ₂ : FTy} (x : FVec Ideal ⟨2, ![R, 128]⟩ φ₁) (Wt : FVec Ideal ⟨2, ![128, 128]⟩ φ₂)
    (brow : FVec Ideal ⟨2, ![1, 128]⟩ .f32) : FVec Ideal ⟨2, ![R, 128]⟩ .f32 :=
  fun j => (∑ k : Fin 128, x (ix2 (j 0) k) * Wt (ix2 k (j 1))) + brow (ix2 (0 : Fin 1) (j 1))

/-- The bias row repeated down `R` rows, read at `(r, c)`, is the row at `(0, c)`: the kernel's spelling. -/
theorem repeat_rows_apply (brow : FVec Ideal ⟨2, ![1, 128]⟩ .f32)
    (h : (⟨2, ![1, 128]⟩ : Shape).Broadcasts ⟨2, ![R, 128]⟩) (j : (⟨2, ![R, 128]⟩ : Shape).Idx) :
    broadcastTo (⟨2, ![R, 128]⟩ : Shape) brow h j = brow (ix2 (0 : Fin 1) (j 1)) := by
  refine broadcastTo_apply brow h j (ix2 (0 : Fin 1) (j 1)) fun a => ?_
  match a with
  | ⟨0, _⟩ => rfl
  | ⟨1, _⟩ => rfl

/-- The same for the reference's spelling, a `broadcast_in_dim` along both axes. -/
theorem repeat_rows_host_apply (brow : FVec Ideal ⟨2, ![1, 128]⟩ .f32)
    (h : (⟨2, ![1, 128]⟩ : Shape).BroadcastsInDim ⟨2, ![R, 128]⟩ ![0, 1]) (j : (⟨2, ![R, 128]⟩ : Shape).Idx) :
    broadcastInDim (⟨2, ![R, 128]⟩ : Shape) ![0, 1] h brow j = brow (ix2 (0 : Fin 1) (j 1)) := by
  refine broadcastInDim_apply ![0, 1] h brow j (ix2 (0 : Fin 1) (j 1)) fun a => ?_
  match a with
  | ⟨0, _⟩ => rfl
  | ⟨1, _⟩ => rfl

/-- The kernel body's layer: a product into the zero accumulator, plus the repeated bias row. -/
theorem body_eq {φ₁ φ₂ : FTy} (d : DotDims ⟨2, ![R, 128]⟩ ⟨2, ![128, 128]⟩ ⟨2, ![R, 128]⟩)
    (hd : d = DotDims.plain R 128 128) (prec : Option ContractPrecision)
    (x : FVec Ideal ⟨2, ![R, 128]⟩ φ₁) (Wt : FVec Ideal ⟨2, ![128, 128]⟩ φ₂) (brow : FVec Ideal ⟨2, ![1, 128]⟩ .f32)
    (h : (⟨2, ![1, 128]⟩ : Shape).Broadcasts ⟨2, ![R, 128]⟩) :
    addf (matmul d prec x Wt (constant ⟨2, ![R, 128]⟩ .f32 0x00000000#32)) (broadcastTo (⟨2, ![R, 128]⟩ : Shape) brow h)
      = layer R x Wt brow := by
  subst hd
  funext j
  rw [addf_apply, repeat_rows_apply]
  exact congrArg (· + _) (PlainDot.matmul_zero_apply_any R 128 128 prec x Wt j)

/-- The reference's layer: a `dot_general`, plus the repeated bias row. -/
theorem host_eq {φ₁ φ₂ : FTy} (d : DotDims ⟨2, ![R, 128]⟩ ⟨2, ![128, 128]⟩ ⟨2, ![R, 128]⟩)
    (hd : d = DotDims.plain R 128 128) (prec : Option ContractPrecision)
    (x : FVec Ideal ⟨2, ![R, 128]⟩ φ₁) (Wt : FVec Ideal ⟨2, ![128, 128]⟩ φ₂) (brow : FVec Ideal ⟨2, ![1, 128]⟩ .f32)
    (h : (⟨2, ![1, 128]⟩ : Shape).BroadcastsInDim ⟨2, ![R, 128]⟩ ![0, 1]) :
    addf (Host.dotGeneral d prec x Wt) (broadcastInDim (⟨2, ![R, 128]⟩ : Shape) ![0, 1] h brow) = layer R x Wt brow := by
  subst hd
  funext j
  rw [addf_apply, repeat_rows_host_apply]
  exact congrArg (· + _) (PlainDot.dotGeneral_apply_any R 128 128 prec .single x Wt j)

/-- A block of rows of a layer is the layer of that block of rows: if `xb` holds the `B` rows of `x` from row `off` on, and
    the matrix and the bias row are the same entry by entry, then row `p` of the layer of `xb` is row `off + p` of the
    layer of `x`. -/
theorem layer_rows {φ₁ φ₂ φ₃ : FTy} (B off : Nat)
    (x : FVec Ideal ⟨2, ![R, 128]⟩ φ₁) (xb : FVec Ideal ⟨2, ![B, 128]⟩ φ₁)
    (Wt : FVec Ideal ⟨2, ![128, 128]⟩ φ₂) (Wb : FVec Ideal ⟨2, ![128, 128]⟩ φ₃)
    (brow bb : FVec Ideal ⟨2, ![1, 128]⟩ .f32)
    (hx : ∀ (p : Fin B) (r : Fin R) (k : Fin 128), r.val = off + p.val → xb (ix2 p k) = x (ix2 r k))
    (hW : ∀ k q : Fin 128, Wb (ix2 k q) = Wt (ix2 k q))
    (hb : ∀ q : Fin 128, bb (ix2 (0 : Fin 1) q) = brow (ix2 (0 : Fin 1) q))
    (p : Fin B) (r : Fin R) (q : Fin 128) (h0 : r.val = off + p.val) :
    layer B xb Wb bb (ix2 p q) = layer R x Wt brow (ix2 r q) := by
  show (∑ k : Fin 128, xb (ix2 p k) * Wb (ix2 k q)) + bb (ix2 (0 : Fin 1) q)
    = (∑ k : Fin 128, x (ix2 r k) * Wt (ix2 k q)) + brow (ix2 (0 : Fin 1) q)
  rw [hb q]
  refine congrArg (· + _) (Finset.sum_congr rfl fun k _ => ?_)
  rw [hx p r k h0, hW k q]

/-- Narrowing an operand's format changes nothing on the extended reals. -/
theorem layer_narrow_left {φ₁ φ₂ ψ : FTy} (x : FVec Ideal ⟨2, ![R, 128]⟩ φ₁) (hx : ψ.bits < φ₁.bits)
    (Wt : FVec Ideal ⟨2, ![128, 128]⟩ φ₂) (brow : FVec Ideal ⟨2, ![1, 128]⟩ .f32) :
    layer R (truncf ψ x hx) Wt brow = layer R x Wt brow := rfl

theorem layer_narrow_right {φ₁ φ₂ ψ : FTy} (x : FVec Ideal ⟨2, ![R, 128]⟩ φ₁) (Wt : FVec Ideal ⟨2, ![128, 128]⟩ φ₂)
    (hw : ψ.bits < φ₂.bits) (brow : FVec Ideal ⟨2, ![1, 128]⟩ .f32) :
    layer R x (truncf ψ Wt hw) brow = layer R x Wt brow := rfl

/-- A bias vector recast as one row and the same vector broadcast along a new leading axis are the same row. -/
theorem bias_row_eq (b : FVec Ideal ⟨1, ![128]⟩ .f32) (h : (⟨1, ![128]⟩ : Shape).ShapeCasts ⟨2, ![1, 128]⟩)
    (h' : (⟨1, ![128]⟩ : Shape).BroadcastsInDim ⟨2, ![1, 128]⟩ ![1]) :
    shapeCast (⟨2, ![1, 128]⟩ : Shape) b h = broadcastInDim (⟨2, ![1, 128]⟩ : Shape) ![1] h' b := by
  funext j
  have e1 : shapeCast (⟨2, ![1, 128]⟩ : Shape) b h j = b (ix1 (j 1)) := by
    refine shapeCast_apply b h j (ix1 (j 1)) ?_
    rw [Shape.rowMajor_val_one, Shape.rowMajor_val_two]
    have h0 : (j 0).val = 0 := by have := idx2_lt0 j; omega
    show (j 1).val = (j 0).val * 128 + (j 1).val
    omega
  have e2 : broadcastInDim (⟨2, ![1, 128]⟩ : Shape) ![1] h' b j = b (ix1 (j 1)) := by
    refine broadcastInDim_apply ![1] h' b j (ix1 (j 1)) fun a => ?_
    match a with
    | ⟨0, _⟩ => rfl
  rw [e1, e2]

end Cert.Projection

end
-- ==== Proof.Chains.lean ====
/-
  The two message-passing steps around the projections, each as one function of whole arrays.

  `toEdges` is the node-to-hyperedge pass: every incidence `(node, hyperedge)` takes the node's projected row, scales
  it by the node's weight over the hyperedge's normaliser, and the scaled rows are summed per hyperedge.
  `toNodes` is the hyperedge-to-node pass, the same with the roles exchanged. Both programs apply exactly these
  host operations (index normalisation, row gathers, a quotient, a product, a scatter-add) to what their projections
  return, so the certificate never opens them: it only shows the arrays going in are equal.
-/
import proofs.«117695_j46574625357936_1_alg».proof.Proof.Gen.KernelIdeal
import Idealize.ShloMosaic.PureOps.Ideal

noncomputable section

namespace Cert.MessagePassing

open Idealize.ShloMosaic Cert.KernelIdeal Cert.KernelIdeal.Facts₀ Cert.KernelIdeal.Facts

/-- Node features to hyperedge features: the weighted rows of `Whn` summed per hyperedge. -/
def toEdges (Whn : (⟨S100000x128, .f32⟩ : BufTy).Contents (Elt Ideal)) (x2 : (⟨S100000x1, .f32⟩ : BufTy).Contents (Elt Ideal)) (x5 : (⟨S20000x1, .f32⟩ : BufTy).Contents (Elt Ideal))
    (x6 x7 : (⟨S600000, .i32⟩ : BufTy).Contents (Elt Ideal)) : (⟨S20000x128, .f32⟩ : BufTy).Contents (Elt Ideal) :=
  Host.scatterAdd (F := Ideal) scatter_S20000x128_S600000x1_S600000x128_1_0_0_1 (broadcastInDim S20000x128 ![] bcast_S_S20000x128 (constant (F := Ideal) S_ .f32 0x00000000#32)) (broadcastInDim S600000x1 ![0] bcast_S600000_S600000x1_0 x7) (mulf (broadcastInDim S600000x128 ![0, 1] bcast_S600000x1_S600000x128_0_1 (Host.divf (F := Ideal) (Host.gather gather_S100000x1_S600000x1_S600000x1_1_0_n_n_0_1_11 x2 (broadcastInDim S600000x1 ![0] bcast_S600000_S600000x1_0 (select (cmpi .slt x6 (broadcastInDim S600000 ![] bcast_S_S600000 (constantI S_ 32 0#32))) (addi x6 (broadcastInDim S600000 ![] bcast_S_S600000 (constantI S_ 32 100000#32))) x6))) (Host.gather gather_S20000x1_S600000x1_S600000x1_1_0_n_n_0_1_11 x5 (broadcastInDim S600000x1 ![0] bcast_S600000_S600000x1_0 (select (cmpi .slt x7 (broadcastInDim S600000 ![] bcast_S_S600000 (constantI S_ 32 0#32))) (addi x7 (broadcastInDim S600000 ![] bcast_S_S600000 (constantI S_ 32 20000#32))) x7))))) (Host.gather gather_S100000x128_S600000x1_S600000x128_1_0_n_n_0_1_1128 Whn (broadcastInDim S600000x1 ![0] bcast_S600000_S600000x1_0 (select (cmpi .slt x6 (broadcastInDim S600000 ![] bcast_S_S600000 (constantI S_ 32 0#32))) (addi x6 (broadcastInDim S600000 ![] bcast_S_S600000 (constantI S_ 32 100000#32))) x6))))

/-- Hyperedge features to node features: the weighted rows of `Whe` summed per node. -/
def toNodes (Whe : (⟨S20000x128, .f32⟩ : BufTy).Contents (Elt Ideal)) (x3 : (⟨S100000x1, .f32⟩ : BufTy).Contents (Elt Ideal)) (x4 : (⟨S20000x1, .f32⟩ : BufTy).Contents (Elt Ideal))
    (x6 x7 : (⟨S600000, .i32⟩ : BufTy).Contents (Elt Ideal)) : (⟨S100000x128, .f32⟩ : BufTy).Contents (Elt Ideal) :=
  Host.scatterAdd (F := Ideal) scatter_S100000x128_S600000x1_S600000x128_1_0_0_1 (broadcastInDim S100000x128 ![] bcast_S_S100000x128 (constant (F := Ideal) S_ .f32 0x00000000#32)) (broadcastInDim S600000x1 ![0] bcast_S600000_S600000x1_0 x6) (mulf (broadcastInDim S600000x128 ![0, 1] bcast_S600000x1_S600000x128_0_1 (Host.divf (F := Ideal) (Host.gather gather_S20000x1_S600000x1_S600000x1_1_0_n_n_0_1_11 x4 (broadcastInDim S600000x1 ![0] bcast_S600000_S600000x1_0 (select (cmpi .slt x7 (broadcastInDim S600000 ![] bcast_S_S600000 (constantI S_ 32 0#32))) (addi x7 (broadcastInDim S600000 ![] bcast_S_S600000 (constantI S_ 32 20000#32))) x7))) (Host.gather gather_S100000x1_S600000x1_S600000x1_1_0_n_n_0_1_11 x3 (broadcastInDim S600000x1 ![0] bcast_S600000_S600000x1_0 (select (cmpi .slt x6 (broadcastInDim S600000 ![] bcast_S_S600000 (constantI S_ 32 0#32))) (addi x6 (broadcastInDim S600000 ![] bcast_S_S600000 (constantI S_ 32 100000#32))) x6))))) (Host.gather gather_S20000x128_S600000x1_S600000x128_1_0_n_n_0_1_1128 Whe (broadcastInDim S600000x1 ![0] bcast_S600000_S600000x1_0 (select (cmpi .slt x7 (broadcastInDim S600000 ![] bcast_S_S600000 (constantI S_ 32 0#32))) (addi x7 (broadcastInDim S600000 ![] bcast_S_S600000 (constantI S_ 32 20000#32))) x7))))

end Cert.MessagePassing

end
-- ==== Proof.EdgeProjection.lean ====
/-
  The hyperedge projection (the program's second pallas call) as one whole-array function.

  The call walks the 20000 rows of its input in 4 blocks of 5000 rows. At each block the body loads the block, the
  whole 128×128 matrix and the whole bias row, and stores one projection layer of the block. A layer computes each
  row from that row alone, so block `t` of the result is rows `5000 t … 5000 t + 4999` of the layer of the whole
  input; the 4 blocks tile the array, so after the call the result array IS the layer of the input array.
-/
import proofs.«117695_j46574625357936_1_alg».proof.Proof.Gen.KernelIdeal.Frame
import proofs.«117695_j46574625357936_1_alg».proof.Proof.Layer
import Idealize.ShloMosaic.Lib.Pipeline.Value
import Idealize.ShloMosaic.Lib.ValueIdx

set_option maxRecDepth 16384

noncomputable section

namespace Cert.KernelIdeal.EdgeProjection

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the buffer contents when the call is entered
variable (V : (c : Dev nD) → (b : Ref sig .tc) → Buf (Elt Ideal) ((c : Thread nD τ).loc b))

theorem origin : (![0, 0] : Fin 2 → Nat) = fun _ => 0 := funext fun a => by fin_cases a <;> rfl

/-- What the body stores is one layer of the block it loaded. -/
theorem stored_eq (x0 : Vec Ideal S5000x128 .f32) (x1 : Vec Ideal S128x128 .bf16) (x2 : Vec Ideal S1x128 .f32) :
    k1_pay1 x0 x1 x2 = Projection.layer 5000 (φ₁ := .f32) (φ₂ := .bf16) x0 x1 x2 := by
  unfold k1_pay1
  dsimp only
  rw [shapeCast_self, shapeCast_self, shapeCast_self]
  exact (Projection.body_eq 5000 _ rfl none _ _ _ _).trans (Projection.layer_narrow_left 5000 (φ₁ := .f32) (φ₂ := .bf16) (ψ := .bf16) x0 _ x1 x2)

/-- The block indices over the grid: the input's row block moves with the output's, everything else stays at 0. -/
theorem block_indices : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 3 :=
  (by decide +kernel : ∀ t : Fin grid1.N, _)

/-- Every row block is some grid point's. -/
theorem block_onto : ∀ q0 : Fin 4, ∃ t : Fin cfg1.N, win1_3.index t (0 : Fin 2) = q0.val :=
  (by decide +kernel : ∀ q0 : Fin 4, ∃ t : Fin grid1.N, win1_3.index t (0 : Fin 2) = q0.val)

/-- What grid point `t` writes back is block `t` of the layer of the whole input array. -/
theorem written_eq (c : Dev nD) (t : Fin cfg1.N) :
    (dat1 V c).flushed 3 t = ((cfg1.win 3).blk t).view.read (Elt Ideal)
      (Projection.layer 20000 (φ₁ := .f32) (φ₂ := .bf16) (V c main_v36) (V c main_v5) (V c main_v8)) := by
  show (cfg1.win 3).cut (grid1.coords t) ((dat1 V c).after 3 t) = _
  rw [after1_3]
  unfold out1_3
  rw [View.canon_unit_zero origin]
  simp only [View.ld_unit_zero (S := S5000x128) origin, View.ld_unit_zero (S := S128x128) origin,
    View.ld_unit_zero (S := S1x128) origin]
  rw [stored_eq]
  obtain ⟨e0, e1, e2, e3, e4, e5, e6, e7⟩ := block_indices t
  funext j
  obtain ⟨p, q, rfl⟩ : ∃ (p : Fin 5000) (q : Fin 128), j = ix2 p q := ⟨j 0, j 1, eq_ix2 j⟩
  have hr : win1_3.index t (0 : Fin 2) * 5000 + p.val < 20000 := by have := p.isLt; omega
  have hemb : ((cfg1.win 3).blk t).view.emb (ix2 p q)
      = ix2 (⟨win1_3.index t (0 : Fin 2) * 5000 + p.val, hr⟩ : Fin 20000) q := by
    funext a; apply Fin.ext
    match a with
    | ⟨0, _⟩ => show win1_3.index t (0 : Fin 2) * 5000 + 1 * p.val = win1_3.index t (0 : Fin 2) * 5000 + p.val; omega
    | ⟨1, _⟩ => show win1_3.index t (1 : Fin 2) * 128 + 1 * q.val = q.val; omega
  show Projection.layer 5000 (φ₁ := .f32) (φ₂ := .bf16) (iblk1 V c 0 t) (iblk1 V c 1 t) (iblk1 V c 2 t) (ix2 p q)
    = Projection.layer 20000 (φ₁ := .f32) (φ₂ := .bf16) (V c main_v36) (V c main_v5) (V c main_v8) (((cfg1.win 3).blk t).view.emb (ix2 p q))
  rw [hemb]
  refine Projection.layer_rows 20000 5000 (win1_3.index t (0 : Fin 2) * 5000) (V c main_v36) (iblk1 V c 0 t)
    (V c main_v5) (iblk1 V c 1 t) (V c main_v8) (iblk1 V c 2 t) ?_ ?_ ?_ p _ q rfl
  · intro p' r k hrk
    show V c main_v36 (((cfg1.win 0).blk t).view.emb (ix2 p' k)) = V c main_v36 (ix2 r k)
    refine congrArg _ (funext fun a => Fin.ext ?_)
    match a with
    | ⟨0, _⟩ => show win1_0.index t (0 : Fin 2) * 5000 + 1 * p'.val = r.val; omega
    | ⟨1, _⟩ => show win1_0.index t (1 : Fin 2) * 128 + 1 * k.val = k.val; omega
  · intro k q'
    show V c main_v5 (((cfg1.win 1).blk t).view.emb (ix2 k q')) = V c main_v5 (ix2 k q')
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * q'.val = q'.val; omega
  · intro q'
    show V c main_v8 (((cfg1.win 2).blk t).view.emb (ix2 (0 : Fin 1) q')) = V c main_v8 (ix2 (0 : Fin 1) q')
    refine congrArg _ (funext fun a => Fin.ext ?_)
    match a with
    | ⟨0, _⟩ => show win1_2.index t (0 : Fin 2) * 1 + 1 * (0 : Fin 1).val = (0 : Fin 1).val; omega
    | ⟨1, _⟩ => show win1_2.index t (1 : Fin 2) * 128 + 1 * q'.val = q'.val; omega

/-- An index is in point `t`'s block iff each coordinate is in the block's range on its axis. -/
theorem mem_block (t : Fin cfg1.N) (i : S20000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v37).slice (win1_3.rect t)).set ↔ _
  rw [View.set_slice_whole, Rect.mem_set_unit]
  exact Iff.rfl

/-- Every index of the result array is in the block of the point whose row block holds its row. -/
theorem covered (i : S20000x128.Idx) :
    ∃ t : Fin cfg1.N, (cfg1.win 3).flush t = true ∧ i ∈ ((cfg1.win 3).blk t).view.set := by
  have hi0 : (i 0).val < 20000 := (i 0).isLt
  have hi1 : (i 1).val < 128 := (i 1).isLt
  obtain ⟨t, ht⟩ := block_onto ⟨(i 0).val / 5000, by omega⟩
  have ht' : win1_3.index t (0 : Fin 2) = (i 0).val / 5000 := ht
  obtain ⟨e0, e1, e2, e3, e4, e5, e6, e7⟩ := block_indices t
  refine ⟨t, flush1_3 t, ?_⟩
  rw [mem_block]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- After the call the result array is the layer of the input array as the call found it. -/
theorem result_eq (c : Dev nD) :
    (dat1 V c).arrAt 3 cfg1.N = Projection.layer 20000 (φ₁ := .f32) (φ₂ := .bf16) (V c main_v36) (V c main_v5) (V c main_v8) :=
  (dat1 V c).arrAt_eq_of_cover 3 _ (fun t _ => written_eq V c t) (covered)

end Cert.KernelIdeal.EdgeProjection

end
-- ==== Proof.VertexProjection.lean ====
/-
  The vertex projection (the program's first pallas call) as one whole-array function.

  The call walks the 100000 rows of the vertex features in 20 blocks of 5000 rows. At each block the body applies two
  projection layers in a row — the first with the matrix and bias of the vertex embedding, the second with those of
  the node-to-hyperedge pass — and stores the result. A layer computes each row from that row alone, so two layers in
  a row do too: block `t` of the result is rows `5000 t … 5000 t + 4999` of the two layers applied to the whole input.
  The 20 blocks tile the array, so after the call the result array IS the two layers of the input array.
-/
import proofs.«117695_j46574625357936_1_alg».proof.Proof.Gen.KernelIdeal.Frame
import proofs.«117695_j46574625357936_1_alg».proof.Proof.Layer
import Idealize.ShloMosaic.Lib.Pipeline.Value
import Idealize.ShloMosaic.Lib.ValueIdx

set_option maxRecDepth 16384

noncomputable section

namespace Cert.KernelIdeal.VertexProjection

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the buffer contents when the call is entered
variable (V : (c : Dev nD) → (b : Ref sig .tc) → Buf (Elt Ideal) ((c : Thread nD τ).loc b))

theorem origin : (![0, 0] : Fin 2 → Nat) = fun _ => 0 := funext fun a => by fin_cases a <;> rfl

/-- What the body stores is two layers of the block it loaded. -/
theorem stored_eq (x0 : Vec Ideal S5000x128 .f32) (x1 : Vec Ideal S128x128 .bf16) (x2 : Vec Ideal S1x128 .f32)
    (x3 : Vec Ideal S128x128 .bf16) (x4 : Vec Ideal S1x128 .f32) :
    k0_pay1 x0 x1 x2 x3 x4 = Projection.layer 5000 (φ₁ := .f32) (φ₂ := .bf16) (Projection.layer 5000 (φ₁ := .f32) (φ₂ := .bf16) x0 x1 x2) x3 x4 := by
  unfold k0_pay1
  dsimp only
  rw [shapeCast_self, shapeCast_self, shapeCast_self, shapeCast_self]
  rw [Projection.body_eq 5000 dot_S5000x128_S128x128_S5000x128_1_0_0_1_n_n rfl none
    (truncf .bf16 x0 bitsLt_bf16_f32) x1 x2 broadcasts_S1x128_S5000x128]
  exact (Projection.body_eq 5000 _ rfl none _ _ _ _).trans rfl

/-- The block indices over the grid: the input's row block moves with the output's, everything else stays at 0. -/
theorem block_indices : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 19 :=
  (by decide +kernel : ∀ t : Fin grid0.N, _)

/-- Every row block is some grid point's. -/
theorem block_onto : ∀ q0 : Fin 20, ∃ t : Fin cfg0.N, win0_5.index t (0 : Fin 2) = q0.val :=
  (by decide +kernel : ∀ q0 : Fin 20, ∃ t : Fin grid0.N, win0_5.index t (0 : Fin 2) = q0.val)

/-- What grid point `t` writes back is block `t` of the two layers of the whole input array. -/
theorem written_eq (c : Dev nD) (t : Fin cfg0.N) :
    (dat0 V c).flushed 5 t = ((cfg0.win 5).blk t).view.read (Elt Ideal)
      (Projection.layer 100000 (φ₁ := .f32) (φ₂ := .bf16) (Projection.layer 100000 (φ₁ := .f32) (φ₂ := .bf16) (V c main_arg0) (V c main_v1) (V c main_v6)) (V c main_v3) (V c main_v7)) := by
  show (cfg0.win 5).cut (grid0.coords t) ((dat0 V c).after 5 t) = _
  rw [after0_5]
  unfold out0_5
  rw [View.canon_unit_zero origin]
  simp only [View.ld_unit_zero (S := S5000x128) origin, View.ld_unit_zero (S := S128x128) origin,
    View.ld_unit_zero (S := S1x128) origin]
  rw [stored_eq]
  obtain ⟨e0, e1, e2, e3, e4, e5, e6, e7, e8, e9, e10, e11⟩ := block_indices t
  funext j
  obtain ⟨p, q, rfl⟩ : ∃ (p : Fin 5000) (q : Fin 128), j = ix2 p q := ⟨j 0, j 1, eq_ix2 j⟩
  have hr : win0_5.index t (0 : Fin 2) * 5000 + p.val < 100000 := by have := p.isLt; omega
  have hemb : ((cfg0.win 5).blk t).view.emb (ix2 p q)
      = ix2 (⟨win0_5.index t (0 : Fin 2) * 5000 + p.val, hr⟩ : Fin 100000) q := by
    funext a; apply Fin.ext
    match a with
    | ⟨0, _⟩ => show win0_5.index t (0 : Fin 2) * 5000 + 1 * p.val = win0_5.index t (0 : Fin 2) * 5000 + p.val; omega
    | ⟨1, _⟩ => show win0_5.index t (1 : Fin 2) * 128 + 1 * q.val = q.val; omega
  show Projection.layer 5000 (φ₁ := .f32) (φ₂ := .bf16) (Projection.layer 5000 (φ₁ := .f32) (φ₂ := .bf16) (iblk0 V c 0 t) (iblk0 V c 1 t) (iblk0 V c 2 t)) (iblk0 V c 3 t) (iblk0 V c 4 t) (ix2 p q)
    = Projection.layer 100000 (φ₁ := .f32) (φ₂ := .bf16) (Projection.layer 100000 (φ₁ := .f32) (φ₂ := .bf16) (V c main_arg0) (V c main_v1) (V c main_v6)) (V c main_v3) (V c main_v7)
        (((cfg0.win 5).blk t).view.emb (ix2 p q))
  rw [hemb]
  refine Projection.layer_rows 100000 5000 (win0_5.index t (0 : Fin 2) * 5000)
    (Projection.layer 100000 (φ₁ := .f32) (φ₂ := .bf16) (V c main_arg0) (V c main_v1) (V c main_v6))
    (Projection.layer 5000 (φ₁ := .f32) (φ₂ := .bf16) (iblk0 V c 0 t) (iblk0 V c 1 t) (iblk0 V c 2 t))
    (V c main_v3) (iblk0 V c 3 t) (V c main_v7) (iblk0 V c 4 t) ?_ ?_ ?_ p _ q rfl
  · intro p' r k hrk
    refine Projection.layer_rows 100000 5000 (win0_5.index t (0 : Fin 2) * 5000) (V c main_arg0) (iblk0 V c 0 t)
      (V c main_v1) (iblk0 V c 1 t) (V c main_v6) (iblk0 V c 2 t) ?_ ?_ ?_ p' r k hrk
    · intro p'' r' k' hrk'
      show V c main_arg0 (((cfg0.win 0).blk t).view.emb (ix2 p'' k')) = V c main_arg0 (ix2 r' k')
      refine congrArg _ (funext fun a => Fin.ext ?_)
      match a with
      | ⟨0, _⟩ => show win0_0.index t (0 : Fin 2) * 5000 + 1 * p''.val = r'.val; omega
      | ⟨1, _⟩ => show win0_0.index t (1 : Fin 2) * 128 + 1 * k'.val = k'.val; omega
    · intro k' q'
      show V c main_v1 (((cfg0.win 1).blk t).view.emb (ix2 k' q')) = V c main_v1 (ix2 k' q')
      refine congrArg _ (funext fun a => Fin.ext ?_)
      match a with
      | ⟨0, _⟩ => show win0_1.index t (0 : Fin 2) * 128 + 1 * k'.val = k'.val; omega
      | ⟨1, _⟩ => show win0_1.index t (1 : Fin 2) * 128 + 1 * q'.val = q'.val; omega
    · intro q'
      show V c main_v6 (((cfg0.win 2).blk t).view.emb (ix2 (0 : Fin 1) q')) = V c main_v6 (ix2 (0 : Fin 1) q')
      refine congrArg _ (funext fun a => Fin.ext ?_)
      match a with
      | ⟨0, _⟩ => show win0_2.index t (0 : Fin 2) * 1 + 1 * (0 : Fin 1).val = (0 : Fin 1).val; omega
      | ⟨1, _⟩ => show win0_2.index t (1 : Fin 2) * 128 + 1 * q'.val = q'.val; omega
  · intro k q'
    show V c main_v3 (((cfg0.win 3).blk t).view.emb (ix2 k q')) = V c main_v3 (ix2 k q')
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q'.val = q'.val; omega
  · intro q'
    show V c main_v7 (((cfg0.win 4).blk t).view.emb (ix2 (0 : Fin 1) q')) = V c main_v7 (ix2 (0 : Fin 1) q')
    refine congrArg _ (funext fun a => Fin.ext ?_)
    match a with
    | ⟨0, _⟩ => show win0_4.index t (0 : Fin 2) * 1 + 1 * (0 : Fin 1).val = (0 : Fin 1).val; omega
    | ⟨1, _⟩ => show win0_4.index t (1 : Fin 2) * 128 + 1 * q'.val = q'.val; omega

/-- An index is in point `t`'s block iff each coordinate is in the block's range on its axis. -/
theorem mem_block (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v9).slice (win0_5.rect t)).set ↔ _
  rw [View.set_slice_whole, Rect.mem_set_unit]
  exact Iff.rfl

/-- Every index of the result array is in the block of the point whose row block holds its row. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := block_onto ⟨(i 0).val / 5000, by omega⟩
  have ht' : win0_5.index t (0 : Fin 2) = (i 0).val / 5000 := ht
  obtain ⟨e0, e1, e2, e3, e4, e5, e6, e7, e8, e9, e10, e11⟩ := block_indices t
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- After the call the result array is the two layers of the input array as the call found it. -/
theorem result_eq (c : Dev nD) :
    (dat0 V c).arrAt 5 cfg0.N
      = Projection.layer 100000 (φ₁ := .f32) (φ₂ := .bf16) (Projection.layer 100000 (φ₁ := .f32) (φ₂ := .bf16) (V c main_arg0) (V c main_v1) (V c main_v6)) (V c main_v3) (V c main_v7) :=
  (dat0 V c).arrAt_eq_of_cover 5 _ (fun t _ => written_eq V c t) (covered)

end Cert.KernelIdeal.VertexProjection

end
-- ==== Proof.KernelValue.lean ====
/-
  The kernel program's result as a composition of whole-array functions of its arguments.

  The program is three stretches of host operations around two pallas calls. Walking back from the result:
  the last stretch is the hyperedge-to-node pass of what the second call left; the second call leaves one
  projection layer of what the middle stretch left; the middle stretch is the node-to-hyperedge pass of what the
  first call left; the first call leaves two projection layers of the vertex features; and the first stretch only
  transposes and narrows the three weight matrices and lays the three biases out as rows. No stretch and no call
  writes an argument array, so every argument is read back as launched.
-/
import proofs.«117695_j46574625357936_1_alg».proof.Proof.Gen.KernelIdeal.Frame
import proofs.«117695_j46574625357936_1_alg».proof.Proof.Layer
import proofs.«117695_j46574625357936_1_alg».proof.Proof.Chains
import proofs.«117695_j46574625357936_1_alg».proof.Proof.EdgeProjection
import proofs.«117695_j46574625357936_1_alg».proof.Proof.VertexProjection
import Idealize.ShloMosaic.Lib.StableHlo.Run

set_option maxRecDepth 16384

noncomputable section

namespace Cert.KernelIdeal.Composed

open Idealize.ShloMosaic Idealize.ShloMosaic.TcCoe Idealize.SL.Sem Idealize.ShloMosaic.StableHlo
open Cert.KernelIdeal Cert.KernelIdeal.Gen

/-! ## Each stretch of host operations as a function of the contents it starts from -/

section Stretches

variable (G : Valuation τ sig (Elt Ideal))

/-- The first stretch leaves in `main_v1` the first weight matrix transposed and narrowed. -/
theorem head_v1 : StableHlo.after hostOps0 G (Proc.devRef .tc main_v1)
    = truncf (F := Ideal) .bf16 (transpose S128x128 [1, 0] (G (Proc.devRef .tc main_arg8)) Facts₀.transposes_S128x128_S128x128_1_0) Facts₀.bitsLt_bf16_f32 := by
  after_results
theorem head_v3 : StableHlo.after hostOps0 G (Proc.devRef .tc main_v3)
    = truncf (F := Ideal) .bf16 (transpose S128x128 [1, 0] (G (Proc.devRef .tc main_arg10)) Facts₀.transposes_S128x128_S128x128_1_0) Facts₀.bitsLt_bf16_f32 := by
  after_results
theorem head_v5 : StableHlo.after hostOps0 G (Proc.devRef .tc main_v5)
    = truncf (F := Ideal) .bf16 (transpose S128x128 [1, 0] (G (Proc.devRef .tc main_arg12)) Facts₀.transposes_S128x128_S128x128_1_0) Facts₀.bitsLt_bf16_f32 := by
  after_results
/-- … and in `main_v6` the first bias laid out as one row. -/
theorem head_v6 : StableHlo.after hostOps0 G (Proc.devRef .tc main_v6)
    = shapeCast S1x128 (G (Proc.devRef .tc main_arg9)) Facts₀.shapeCasts_S128_S1x128 := by
  after_results; rfl
theorem head_v7 : StableHlo.after hostOps0 G (Proc.devRef .tc main_v7)
    = shapeCast S1x128 (G (Proc.devRef .tc main_arg11)) Facts₀.shapeCasts_S128_S1x128 := by
  after_results; rfl
theorem head_v8 : StableHlo.after hostOps0 G (Proc.devRef .tc main_v8)
    = shapeCast S1x128 (G (Proc.devRef .tc main_arg13)) Facts₀.shapeCasts_S128_S1x128 := by
  after_results; rfl

set_option maxHeartbeats 8000000 in
/-- The middle stretch is the node-to-hyperedge pass of the first call's result. -/
theorem middle_v36 : StableHlo.after hostOps1 G (Proc.devRef .tc main_v36)
    = MessagePassing.toEdges (G (Proc.devRef .tc main_v9)) (G (Proc.devRef .tc main_arg2)) (G (Proc.devRef .tc main_arg5))
        (G (Proc.devRef .tc main_arg6)) (G (Proc.devRef .tc main_arg7)) := by
  after_results_simp
  rfl

set_option maxHeartbeats 8000000 in
/-- The last stretch is the hyperedge-to-node pass of the second call's result. -/
theorem tail_v64 : StableHlo.after hostOps2 G (Proc.devRef .tc main_v64)
    = MessagePassing.toNodes (G (Proc.devRef .tc main_v37)) (G (Proc.devRef .tc main_arg3)) (G (Proc.devRef .tc main_arg4))
        (G (Proc.devRef .tc main_arg6)) (G (Proc.devRef .tc main_arg7)) := by
  after_results_simp
  rfl

end Stretches

/-! ## The contents at each boundary, read at the buffers the next item takes -/

variable (m : (ℓ : Loc nD τ sig) → Buf (Elt Ideal) ℓ) (ρ : Dev nD → PrngReg)

theorem W1_arg0 (c : Dev nD) : W1 m ρ c (Proc.devRef .tc main_arg0) = (m ((c : Thread nD τ).loc main_arg0)) :=
  (StableHlo.after_of_forall_not_mem (b := (Proc.devRef .tc main_arg0)) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans rfl
theorem W1_arg2 (c : Dev nD) : W1 m ρ c (Proc.devRef .tc main_arg2) = (m ((c : Thread nD τ).loc main_arg2)) :=
  (StableHlo.after_of_forall_not_mem (b := (Proc.devRef .tc main_arg2)) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans rfl
theorem W1_arg3 (c : Dev nD) : W1 m ρ c (Proc.devRef .tc main_arg3) = (m ((c : Thread nD τ).loc main_arg3)) :=
  (StableHlo.after_of_forall_not_mem (b := (Proc.devRef .tc main_arg3)) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans rfl
theorem W1_arg4 (c : Dev nD) : W1 m ρ c (Proc.devRef .tc main_arg4) = (m ((c : Thread nD τ).loc main_arg4)) :=
  (StableHlo.after_of_forall_not_mem (b := (Proc.devRef .tc main_arg4)) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans rfl
theorem W1_arg5 (c : Dev nD) : W1 m ρ c (Proc.devRef .tc main_arg5) = (m ((c : Thread nD τ).loc main_arg5)) :=
  (StableHlo.after_of_forall_not_mem (b := (Proc.devRef .tc main_arg5)) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans rfl
theorem W1_arg6 (c : Dev nD) : W1 m ρ c (Proc.devRef .tc main_arg6) = (m ((c : Thread nD τ).loc main_arg6)) :=
  (StableHlo.after_of_forall_not_mem (b := (Proc.devRef .tc main_arg6)) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans rfl
theorem W1_arg7 (c : Dev nD) : W1 m ρ c (Proc.devRef .tc main_arg7) = (m ((c : Thread nD τ).loc main_arg7)) :=
  (StableHlo.after_of_forall_not_mem (b := (Proc.devRef .tc main_arg7)) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans rfl
theorem W1_v1 (c : Dev nD) : W1 m ρ c (Proc.devRef .tc main_v1) = (truncf (F := Ideal) .bf16 (transpose S128x128 [1, 0] (m ((c : Thread nD τ).loc main_arg8)) Facts₀.transposes_S128x128_S128x128_1_0) Facts₀.bitsLt_bf16_f32) := head_v1 (W0 m ρ c)
theorem W1_v3 (c : Dev nD) : W1 m ρ c (Proc.devRef .tc main_v3) = (truncf (F := Ideal) .bf16 (transpose S128x128 [1, 0] (m ((c : Thread nD τ).loc main_arg10)) Facts₀.transposes_S128x128_S128x128_1_0) Facts₀.bitsLt_bf16_f32) := head_v3 (W0 m ρ c)
theorem W1_v5 (c : Dev nD) : W1 m ρ c (Proc.devRef .tc main_v5) = (truncf (F := Ideal) .bf16 (transpose S128x128 [1, 0] (m ((c : Thread nD τ).loc main_arg12)) Facts₀.transposes_S128x128_S128x128_1_0) Facts₀.bitsLt_bf16_f32) := head_v5 (W0 m ρ c)
theorem W1_v6 (c : Dev nD) : W1 m ρ c (Proc.devRef .tc main_v6) = (shapeCast S1x128 (m ((c : Thread nD τ).loc main_arg9)) Facts₀.shapeCasts_S128_S1x128) := head_v6 (W0 m ρ c)
theorem W1_v7 (c : Dev nD) : W1 m ρ c (Proc.devRef .tc main_v7) = (shapeCast S1x128 (m ((c : Thread nD τ).loc main_arg11)) Facts₀.shapeCasts_S128_S1x128) := head_v7 (W0 m ρ c)
theorem W1_v8 (c : Dev nD) : W1 m ρ c (Proc.devRef .tc main_v8) = (shapeCast S1x128 (m ((c : Thread nD τ).loc main_arg13)) Facts₀.shapeCasts_S128_S1x128) := head_v8 (W0 m ρ c)

/-- After the first call its result array holds two layers of the vertex features. -/
theorem W2_v9 (c : Dev nD) : W2 m ρ c (Proc.devRef .tc main_v9)
    = Projection.layer 100000 (φ₁ := .f32) (φ₂ := .bf16) (Projection.layer 100000 (φ₁ := .f32) (φ₂ := .bf16) (m ((c : Thread nD τ).loc main_arg0)) (truncf (F := Ideal) .bf16 (transpose S128x128 [1, 0] (m ((c : Thread nD τ).loc main_arg8)) Facts₀.transposes_S128x128_S128x128_1_0) Facts₀.bitsLt_bf16_f32) (shapeCast S1x128 (m ((c : Thread nD τ).loc main_arg9)) Facts₀.shapeCasts_S128_S1x128)) (truncf (F := Ideal) .bf16 (transpose S128x128 [1, 0] (m ((c : Thread nD τ).loc main_arg10)) Facts₀.transposes_S128x128_S128x128_1_0) Facts₀.bitsLt_bf16_f32) (shapeCast S1x128 (m ((c : Thread nD τ).loc main_arg11)) Facts₀.shapeCasts_S128_S1x128) := by
  refine (W2_arr m ρ c 5).trans ((VertexProjection.result_eq (V1 m ρ) c).trans ?_)
  show Projection.layer 100000 (φ₁ := .f32) (φ₂ := .bf16) (Projection.layer 100000 (φ₁ := .f32) (φ₂ := .bf16) (W1 m ρ c (Proc.devRef .tc main_arg0)) (W1 m ρ c (Proc.devRef .tc main_v1)) (W1 m ρ c (Proc.devRef .tc main_v6)))
      (W1 m ρ c (Proc.devRef .tc main_v3)) (W1 m ρ c (Proc.devRef .tc main_v7)) = _
  rw [W1_arg0, W1_v1, W1_v6, W1_v3, W1_v7]
theorem W2_arg2 (c : Dev nD) : W2 m ρ c (Proc.devRef .tc main_arg2) = (m ((c : Thread nD τ).loc main_arg2)) :=
  (W2_of_ne m ρ c main_arg2 (by decide)).trans (W1_arg2 m ρ c)
theorem W2_arg3 (c : Dev nD) : W2 m ρ c (Proc.devRef .tc main_arg3) = (m ((c : Thread nD τ).loc main_arg3)) :=
  (W2_of_ne m ρ c main_arg3 (by decide)).trans (W1_arg3 m ρ c)
theorem W2_arg4 (c : Dev nD) : W2 m ρ c (Proc.devRef .tc main_arg4) = (m ((c : Thread nD τ).loc main_arg4)) :=
  (W2_of_ne m ρ c main_arg4 (by decide)).trans (W1_arg4 m ρ c)
theorem W2_arg5 (c : Dev nD) : W2 m ρ c (Proc.devRef .tc main_arg5) = (m ((c : Thread nD τ).loc main_arg5)) :=
  (W2_of_ne m ρ c main_arg5 (by decide)).trans (W1_arg5 m ρ c)
theorem W2_arg6 (c : Dev nD) : W2 m ρ c (Proc.devRef .tc main_arg6) = (m ((c : Thread nD τ).loc main_arg6)) :=
  (W2_of_ne m ρ c main_arg6 (by decide)).trans (W1_arg6 m ρ c)
theorem W2_arg7 (c : Dev nD) : W2 m ρ c (Proc.devRef .tc main_arg7) = (m ((c : Thread nD τ).loc main_arg7)) :=
  (W2_of_ne m ρ c main_arg7 (by decide)).trans (W1_arg7 m ρ c)
theorem W2_v5 (c : Dev nD) : W2 m ρ c (Proc.devRef .tc main_v5) = (truncf (F := Ideal) .bf16 (transpose S128x128 [1, 0] (m ((c : Thread nD τ).loc main_arg12)) Facts₀.transposes_S128x128_S128x128_1_0) Facts₀.bitsLt_bf16_f32) :=
  (W2_of_ne m ρ c main_v5 (by decide)).trans (W1_v5 m ρ c)
theorem W2_v8 (c : Dev nD) : W2 m ρ c (Proc.devRef .tc main_v8) = (shapeCast S1x128 (m ((c : Thread nD τ).loc main_arg13)) Facts₀.shapeCasts_S128_S1x128) :=
  (W2_of_ne m ρ c main_v8 (by decide)).trans (W1_v8 m ρ c)

/-- What the first call and the stretches before it compute: two layers of the vertex features. -/
abbrev nodeProj (c : Dev nD) : (⟨S100000x128, .f32⟩ : BufTy).Contents (Elt Ideal) :=
  Projection.layer 100000 (φ₁ := .f32) (φ₂ := .bf16) (Projection.layer 100000 (φ₁ := .f32) (φ₂ := .bf16) (m ((c : Thread nD τ).loc main_arg0)) (truncf (F := Ideal) .bf16 (transpose S128x128 [1, 0] (m ((c : Thread nD τ).loc main_arg8)) Facts₀.transposes_S128x128_S128x128_1_0) Facts₀.bitsLt_bf16_f32) (shapeCast S1x128 (m ((c : Thread nD τ).loc main_arg9)) Facts₀.shapeCasts_S128_S1x128)) (truncf (F := Ideal) .bf16 (transpose S128x128 [1, 0] (m ((c : Thread nD τ).loc main_arg10)) Facts₀.transposes_S128x128_S128x128_1_0) Facts₀.bitsLt_bf16_f32) (shapeCast S1x128 (m ((c : Thread nD τ).loc main_arg11)) Facts₀.shapeCasts_S128_S1x128)

/-- Entering the second call, its input array holds the node-to-hyperedge pass of those two layers. -/
theorem W3_v36 (c : Dev nD) : W3 m ρ c (Proc.devRef .tc main_v36)
    = MessagePassing.toEdges (nodeProj m c) (m ((c : Thread nD τ).loc main_arg2)) (m ((c : Thread nD τ).loc main_arg5)) (m ((c : Thread nD τ).loc main_arg6)) (m ((c : Thread nD τ).loc main_arg7)) := by
  refine (middle_v36 (W2 m ρ c)).trans ?_
  rw [W2_v9, W2_arg2, W2_arg5, W2_arg6, W2_arg7]
theorem W3_v5 (c : Dev nD) : W3 m ρ c (Proc.devRef .tc main_v5) = (truncf (F := Ideal) .bf16 (transpose S128x128 [1, 0] (m ((c : Thread nD τ).loc main_arg12)) Facts₀.transposes_S128x128_S128x128_1_0) Facts₀.bitsLt_bf16_f32) :=
  (StableHlo.after_of_forall_not_mem (b := (Proc.devRef .tc main_v5)) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans (W2_v5 m ρ c)
theorem W3_v8 (c : Dev nD) : W3 m ρ c (Proc.devRef .tc main_v8) = (shapeCast S1x128 (m ((c : Thread nD τ).loc main_arg13)) Facts₀.shapeCasts_S128_S1x128) :=
  (StableHlo.after_of_forall_not_mem (b := (Proc.devRef .tc main_v8)) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans (W2_v8 m ρ c)
theorem W3_arg3 (c : Dev nD) : W3 m ρ c (Proc.devRef .tc main_arg3) = (m ((c : Thread nD τ).loc main_arg3)) :=
  (StableHlo.after_of_forall_not_mem (b := (Proc.devRef .tc main_arg3)) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans (W2_arg3 m ρ c)
theorem W3_arg4 (c : Dev nD) : W3 m ρ c (Proc.devRef .tc main_arg4) = (m ((c : Thread nD τ).loc main_arg4)) :=
  (StableHlo.after_of_forall_not_mem (b := (Proc.devRef .tc main_arg4)) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans (W2_arg4 m ρ c)
theorem W3_arg6 (c : Dev nD) : W3 m ρ c (Proc.devRef .tc main_arg6) = (m ((c : Thread nD τ).loc main_arg6)) :=
  (StableHlo.after_of_forall_not_mem (b := (Proc.devRef .tc main_arg6)) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans (W2_arg6 m ρ c)
theorem W3_arg7 (c : Dev nD) : W3 m ρ c (Proc.devRef .tc main_arg7) = (m ((c : Thread nD τ).loc main_arg7)) :=
  (StableHlo.after_of_forall_not_mem (b := (Proc.devRef .tc main_arg7)) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans (W2_arg7 m ρ c)

/-- What the second call leaves: one layer of the hyperedge features. -/
abbrev edgeProj (c : Dev nD) : (⟨S20000x128, .f32⟩ : BufTy).Contents (Elt Ideal) :=
  Projection.layer 20000 (φ₁ := .f32) (φ₂ := .bf16) (MessagePassing.toEdges (nodeProj m c) (m ((c : Thread nD τ).loc main_arg2)) (m ((c : Thread nD τ).loc main_arg5)) (m ((c : Thread nD τ).loc main_arg6)) (m ((c : Thread nD τ).loc main_arg7))) (truncf (F := Ideal) .bf16 (transpose S128x128 [1, 0] (m ((c : Thread nD τ).loc main_arg12)) Facts₀.transposes_S128x128_S128x128_1_0) Facts₀.bitsLt_bf16_f32) (shapeCast S1x128 (m ((c : Thread nD τ).loc main_arg13)) Facts₀.shapeCasts_S128_S1x128)

theorem W4_v37 (c : Dev nD) : W4 m ρ c (Proc.devRef .tc main_v37) = edgeProj m c := by
  refine (W4_arr m ρ c 3).trans ((EdgeProjection.result_eq (V3 m ρ) c).trans ?_)
  show Projection.layer 20000 (φ₁ := .f32) (φ₂ := .bf16) (W3 m ρ c (Proc.devRef .tc main_v36)) (W3 m ρ c (Proc.devRef .tc main_v5)) (W3 m ρ c (Proc.devRef .tc main_v8)) = _
  rw [W3_v36, W3_v5, W3_v8]
theorem W4_arg3 (c : Dev nD) : W4 m ρ c (Proc.devRef .tc main_arg3) = (m ((c : Thread nD τ).loc main_arg3)) :=
  (W4_of_ne m ρ c main_arg3 (by decide)).trans (W3_arg3 m ρ c)
theorem W4_arg4 (c : Dev nD) : W4 m ρ c (Proc.devRef .tc main_arg4) = (m ((c : Thread nD τ).loc main_arg4)) :=
  (W4_of_ne m ρ c main_arg4 (by decide)).trans (W3_arg4 m ρ c)
theorem W4_arg6 (c : Dev nD) : W4 m ρ c (Proc.devRef .tc main_arg6) = (m ((c : Thread nD τ).loc main_arg6)) :=
  (W4_of_ne m ρ c main_arg6 (by decide)).trans (W3_arg6 m ρ c)
theorem W4_arg7 (c : Dev nD) : W4 m ρ c (Proc.devRef .tc main_arg7) = (m ((c : Thread nD τ).loc main_arg7)) :=
  (W4_of_ne m ρ c main_arg7 (by decide)).trans (W3_arg7 m ρ c)

/-- THE RESULT: the hyperedge-to-node pass of the second call's layer. -/
theorem result_eq (c : Dev nD) : W5 m ρ c (Proc.devRef .tc main_v64)
    = MessagePassing.toNodes (edgeProj m c) (m ((c : Thread nD τ).loc main_arg3)) (m ((c : Thread nD τ).loc main_arg4)) (m ((c : Thread nD τ).loc main_arg6)) (m ((c : Thread nD τ).loc main_arg7)) := by
  refine (tail_v64 (W4 m ρ c)).trans ?_
  rw [W4_v37, W4_arg3, W4_arg4, W4_arg6, W4_arg7]

end Cert.KernelIdeal.Composed

end
-- ==== Proof.RefValue.lean ====
/-
  The reference's result as the same composition the kernel program computes.

  The reference applies a projection layer twice to the vertex features (a `dot_general` with the transposed weight,
  plus the bias repeated down the rows), passes the result from nodes to hyperedges, applies one more layer, and passes
  that back to the nodes. Each `dot_general`-plus-bias IS the layer function, so the reference's composed term is
  `toNodes (layer (toEdges (layer (layer x))))` of its argument arrays.
-/
import proofs.«117695_j46574625357936_1_alg».proof.Proof.Gen.ReferenceIdeal.Run
import proofs.«117695_j46574625357936_1_alg».proof.Proof.Layer
import proofs.«117695_j46574625357936_1_alg».proof.Proof.Chains

set_option maxRecDepth 16384

noncomputable section

namespace Cert.ReferenceIdeal.Composed

open Idealize.ShloMosaic Idealize.ShloMosaic.TcCoe Idealize.SL.Sem
open Cert.ReferenceIdeal Cert.ReferenceIdeal.Value Cert.ReferenceIdeal.Facts₀ Cert.ReferenceIdeal.Facts

variable (m : (ℓ : Loc nD τ sig) → Buf (Elt Ideal) ℓ)

/-- The reference's result array, as the composition of the three layers and the two passes. -/
theorem result_eq (c : Dev nD) :
    res_main_v68 (F := Ideal) m c
      = MessagePassing.toNodes
          (Projection.layer 20000 (φ₁ := .f32) (φ₂ := .f32)
            (MessagePassing.toEdges
              (Projection.layer 100000 (φ₁ := .f32) (φ₂ := .f32) (Projection.layer 100000 (φ₁ := .f32) (φ₂ := .f32) (m ((c.tc : Thread nD τ).loc main_arg0)) (transpose S128x128 [1, 0] (m ((c.tc : Thread nD τ).loc main_arg8)) transposes_S128x128_S128x128_1_0) (broadcastInDim S1x128 ![1] bcast_S128_S1x128_1 (m ((c.tc : Thread nD τ).loc main_arg9)))) (transpose S128x128 [1, 0] (m ((c.tc : Thread nD τ).loc main_arg10)) transposes_S128x128_S128x128_1_0) (broadcastInDim S1x128 ![1] bcast_S128_S1x128_1 (m ((c.tc : Thread nD τ).loc main_arg11))))
              (m ((c.tc : Thread nD τ).loc main_arg2)) (m ((c.tc : Thread nD τ).loc main_arg5)) (m ((c.tc : Thread nD τ).loc main_arg6)) (m ((c.tc : Thread nD τ).loc main_arg7)))
            (transpose S128x128 [1, 0] (m ((c.tc : Thread nD τ).loc main_arg12)) transposes_S128x128_S128x128_1_0) (broadcastInDim S1x128 ![1] bcast_S128_S1x128_1 (m ((c.tc : Thread nD τ).loc main_arg13))))
          (m ((c.tc : Thread nD τ).loc main_arg3)) (m ((c.tc : Thread nD τ).loc main_arg4)) (m ((c.tc : Thread nD τ).loc main_arg6)) (m ((c.tc : Thread nD τ).loc main_arg7)) := by
  unfold res_main_v68
  rw [Projection.host_eq 100000 dot_S100000x128_S128x128_S100000x128_1_0_0_1_n_n rfl none (m ((c.tc : Thread nD τ).loc main_arg0)) (transpose S128x128 [1, 0] (m ((c.tc : Thread nD τ).loc main_arg8)) transposes_S128x128_S128x128_1_0) (broadcastInDim S1x128 ![1] bcast_S128_S1x128_1 (m ((c.tc : Thread nD τ).loc main_arg9)))
    bcast_S1x128_S100000x128_0_1]
  rw [Projection.host_eq 100000 dot_S100000x128_S128x128_S100000x128_1_0_0_1_n_n rfl none _ (transpose S128x128 [1, 0] (m ((c.tc : Thread nD τ).loc main_arg10)) transposes_S128x128_S128x128_1_0) (broadcastInDim S1x128 ![1] bcast_S128_S1x128_1 (m ((c.tc : Thread nD τ).loc main_arg11)))
    bcast_S1x128_S100000x128_0_1]
  rw [Projection.host_eq 20000 dot_S20000x128_S128x128_S20000x128_1_0_0_1_n_n rfl none _ (transpose S128x128 [1, 0] (m ((c.tc : Thread nD τ).loc main_arg12)) transposes_S128x128_S128x128_1_0) (broadcastInDim S1x128 ![1] bcast_S128_S1x128_1 (m ((c.tc : Thread nD τ).loc main_arg13)))
    bcast_S1x128_S20000x128_0_1]
  rfl

end Cert.ReferenceIdeal.Composed

end
-- ==== Proof.Agreement.lean ====
/-
  The two programs compute the same array.

  Both results are `toNodes (layer (toEdges (layer (layer x))))` of the argument arrays. The only differences are in how
  a layer's matrix and bias row are spelled: the kernel program narrows the transposed weight to bf16 before the
  product (the identity on the extended reals) and recasts the bias vector as a row, where the reference keeps the
  transposed weight as it is and broadcasts the bias vector along a new leading axis (the same row). So from memories
  that agree on the arguments the two results are equal, entry by entry.
-/
import proofs.«117695_j46574625357936_1_alg».proof.Proof.KernelValue
import proofs.«117695_j46574625357936_1_alg».proof.Proof.RefValue

set_option maxRecDepth 16384

noncomputable section

namespace Cert.Agreement

open Idealize.ShloMosaic Idealize.ShloMosaic.TcCoe Idealize.SL.Sem

/-- A layer with the narrowed matrix and the recast bias row is the layer with the matrix as it is and the broadcast
    bias row. -/
theorem layer_spellings (R : Nat) (x : FVec Ideal ⟨2, ![R, 128]⟩ .f32) (Wt : FVec Ideal ⟨2, ![128, 128]⟩ .f32)
    (b : FVec Ideal ⟨1, ![128]⟩ .f32) (hw : FTy.bf16.bits < FTy.f32.bits)
    (h1 : (⟨1, ![128]⟩ : Shape).ShapeCasts ⟨2, ![1, 128]⟩)
    (h2 : (⟨1, ![128]⟩ : Shape).BroadcastsInDim ⟨2, ![1, 128]⟩ ![1]) :
    Projection.layer R (φ₁ := .f32) (φ₂ := .bf16) x (truncf .bf16 Wt hw) (shapeCast (⟨2, ![1, 128]⟩ : Shape) b h1)
      = Projection.layer R (φ₁ := .f32) (φ₂ := .f32) x Wt (broadcastInDim (⟨2, ![1, 128]⟩ : Shape) ![1] h2 b) := by
  rw [Projection.bias_row_eq b h1 h2]
  rfl

/-- From memories that agree on the arguments, the reference's result is the kernel program's. -/
theorem results_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (h12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (h13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))) :
    Cert.ReferenceIdeal.Value.res_main_v68 (F := Ideal) m' c
      = Cert.KernelIdeal.Gen.W5 m ρ c (Proc.devRef .tc Cert.KernelIdeal.main_v64) := by
  rw [Cert.ReferenceIdeal.Composed.result_eq m' c, Cert.KernelIdeal.Composed.result_eq m ρ c]
  rw [h0, h2, h3, h4, h5, h6, h7, h8, h9, h10, h11, h12, h13]
  dsimp only [Cert.KernelIdeal.Composed.edgeProj, Cert.KernelIdeal.Composed.nodeProj]
  rw [layer_spellings 100000 _ _ _ _ _ Cert.ReferenceIdeal.Facts₀.bcast_S128_S1x128_1,
    layer_spellings 100000 _ _ _ _ _ Cert.ReferenceIdeal.Facts₀.bcast_S128_S1x128_1,
    layer_spellings 20000 _ _ _ _ _ Cert.ReferenceIdeal.Facts₀.bcast_S128_S1x128_1]

end Cert.Agreement

end
-- ==== Proof.lean ====
/-
  The certificate of the hypergraph message-passing kernel against its jnp reference, over the extended reals.

  The kernel program runs two pallas calls between three stretches of host operations; the reference is host
  operations only. Each pallas call tiles a row-wise projection layer (a matrix product plus a bias row) over blocks of
  5000 rows, and a layer computes every row from that row alone, so after each call its result array is the layer of
  the whole input array (`VertexProjection`, `EdgeProjection`). The gathers, the quotient, the product and the
  scatter-add around the calls are the same operations in both programs (`Chains`), so both results are
  `toNodes (layer (toEdges (layer (layer x))))` of the arguments (`KernelValue`, `RefValue`) and agree (`Agreement`).
  No law beyond "the same sum in the same order" is used, so the inputs' finiteness is never opened.
  The three frames are the generated ones; the kernel program's run with its result named is `KernelRun`.
-/
import proofs.«117695_j46574625357936_1_alg».proof.Defs
import proofs.«117695_j46574625357936_1_alg».proof.Proof.Gen.Kernel
import proofs.«117695_j46574625357936_1_alg».proof.Proof.Gen.Kernel.Skeleton
import proofs.«117695_j46574625357936_1_alg».proof.Proof.Gen.Kernel.Launch
import proofs.«117695_j46574625357936_1_alg».proof.Proof.Gen.Kernel.Points
import proofs.«117695_j46574625357936_1_alg».proof.Proof.Gen.Kernel.Frame
import proofs.«117695_j46574625357936_1_alg».proof.Proof.Gen.KernelIdeal
import proofs.«117695_j46574625357936_1_alg».proof.Proof.Gen.KernelIdeal.Skeleton
import proofs.«117695_j46574625357936_1_alg».proof.Proof.Gen.KernelIdeal.Launch
import proofs.«117695_j46574625357936_1_alg».proof.Proof.Gen.KernelIdeal.Points
import proofs.«117695_j46574625357936_1_alg».proof.Proof.Gen.KernelIdeal.Frame
import proofs.«117695_j46574625357936_1_alg».proof.Proof.Gen.ReferenceIdeal
import proofs.«117695_j46574625357936_1_alg».proof.Proof.Gen.Pre_finite_inputs
import proofs.«117695_j46574625357936_1_alg».proof.Proof.Gen.ReferenceIdeal.Run
import proofs.«117695_j46574625357936_1_alg».proof.Proof.KernelRun
import proofs.«117695_j46574625357936_1_alg».proof.Proof.Agreement
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference's frame is its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs run, and end with the same result array: the kernel program's run names its result as
    the last stretch's contents, the reference's run names its own composed term, and the two are one array. -/
theorem algebraic : Cert.algebraic_KernelIdeal_ReferenceIdeal := by
  intro m ρ m' ρ' _ hagree
  refine ⟨fun c => Cert.KernelIdeal.Gen.W5 m ρ c (Proc.devRef .tc Cert.KernelIdeal.main_v64),
    Cert.KernelIdeal.Named.run_named m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  exact Cert.Agreement.results_eq m ρ m' c h0 h2 h3 h4 h5 h6 h7 h8 h9 h10 h11 h12 h13

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
